-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000 : Shape := ⟨1, ![1000000]⟩
abbrev S2x500000 : Shape := ⟨2, ![2, 500000]⟩
abbrev S128x64 : Shape := ⟨2, ![128, 64]⟩
abbrev S64x64 : Shape := ⟨2, ![64, 64]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg6 : FVec F S2x128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  main_v23

def fn {F : FTy → Type} [FloatOps F] (main_arg0 : FVec F S100000x128 .f32) (main_arg1 : IVec S2x1000000 32) (main_arg2 : FVec F S1000000 .f32) (main_arg3 : IVec S2x500000 32) (main_arg4 : FVec F S128x64 .f32) (main_arg5 : FVec F S64x64 .f32) (main_arg6 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x128 : Shape := ⟨2, ![100000, 128]⟩
abbrev S2x1000000 : Shape := ⟨2, ![2, 1000000]⟩
abbrev S1000000 : Shape := ⟨1, ![1000000]⟩
abbrev S2x500000 : Shape := ⟨2, ![2, 500000]⟩
abbrev S128x64 : Shape := ⟨2, ![128, 64]⟩
abbrev S64x64 : Shape := ⟨2, ![64, 64]⟩
abbrev S2x128 : Shape := ⟨2, ![2, 128]⟩
abbrev S1x1000000 : Shape := ⟨2, ![1, 1000000]⟩
abbrev S100000x64 : Shape := ⟨2, ![100000, 64]⟩
abbrev S2000x128 : Shape := ⟨2, ![2000, 128]⟩
abbrev S2000x64 : Shape := ⟨2, ![2000, 64]⟩
abbrev S_ : Shape := ⟨0, ![]⟩
abbrev S1000000x1 : Shape := ⟨2, ![1000000, 1]⟩
abbrev S1000000x64 : Shape := ⟨2, ![1000000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S500000x128 : Shape := ⟨2, ![500000, 128]⟩
abbrev S128x2 : Shape := ⟨2, ![128, 2]⟩
abbrev S500000x2 : Shape := ⟨2, ![500000, 2]⟩
abbrev S5000x128 : Shape := ⟨2, ![5000, 128]⟩
abbrev S5000x2 : Shape := ⟨2, ![5000, 2]⟩

abbrev nBuf : Space → Nat
  | .hbm => 73
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000, .f32⟩
  | .hbm, ⟨3, _⟩ => ⟨S2x500000, .i32⟩
  | .hbm, ⟨4, _⟩ => ⟨S128x64, .f32⟩
  | .hbm, ⟨5, _⟩ => ⟨S64x64, .f32⟩
  | .hbm, ⟨6, _⟩ => ⟨S2x128, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S100000x64, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S1000000x1, .f32⟩
  | .hbm, ⟨22, _⟩ => ⟨S1000000x64, .f32⟩
  | .hbm, ⟨23, _⟩ => ⟨S1000000x64, .f32⟩
  | .hbm, ⟨24, _⟩ => ⟨S_, .f32⟩
  | .hbm, ⟨25, _⟩ => ⟨S100000x64, .f32⟩
  | .hbm, ⟨26, _⟩ => ⟨S1000000x1, .i32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .f32⟩
  | .hbm, ⟨41, _⟩ => ⟨S1000000x1, .f32⟩
  | .hbm, ⟨42, _⟩ => ⟨S1000000x64, .f32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S1x500000, .i32⟩
  | .hbm, ⟨49, _⟩ => ⟨S500000, .i32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x64, .f32⟩
  | .hbm, ⟨59, _⟩ => ⟨S1x500000, .i32⟩
  | .hbm, ⟨60, _⟩ => ⟨S500000, .i32⟩
  | .hbm, ⟨61, _⟩ => ⟨S_, .i32⟩
  | .hbm, ⟨62, _⟩ => ⟨S500000, .i32⟩
  | .hbm, ⟨63, _⟩ => ⟨S500000, .i1⟩
  | .hbm, ⟨64, _⟩ => ⟨S_, .i32⟩
  | .hbm, ⟨65, _⟩ => ⟨S500000, .i32⟩
  | .hbm, ⟨66, _⟩ => ⟨S500000, .i32⟩
  | .hbm, ⟨67, _⟩ => ⟨S500000, .i32⟩
  | .hbm, ⟨68, _⟩ => ⟨S500000x1, .i32⟩
  | .hbm, ⟨69, _⟩ => ⟨S500000x64, .f32⟩
  | .hbm, ⟨70, _⟩ => ⟨S500000x128, .f32⟩
  | .hbm, ⟨71, _⟩ => ⟨S128x2, .f32⟩
  | .hbm, ⟨72, _⟩ => ⟨S500000x2, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x64, .f32⟩
  | .local _ .vmem, ⟨8, _⟩ => ⟨S2000x64, .f32⟩
  | .local _ .vmem, ⟨9, _⟩ => ⟨S2000x64, .f32⟩
  | .local _ .vmem, ⟨10, _⟩ => ⟨S5000x128, .f32⟩
  | .local _ .vmem, ⟨11, _⟩ => ⟨S5000x128, .f32⟩
  | .local _ .vmem, ⟨12, _⟩ => ⟨S128x2, .f32⟩
  | .local _ .vmem, ⟨13, _⟩ => ⟨S5000x2, .f32⟩
  | .local _ .vmem, ⟨14, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x64_S500000x64_S500000x128_d1 : Shape.Concatenates [S500000x64, S500000x64] S500000x128 1
  transposes_S2x128_S128x2_1_0 : S2x128.Transposes [1, 0] S128x2
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S5000x2_S5000x2_0_0 : ∀ a, (![0, 0] : Fin 2 → Nat) a + S5000x2.size a ≤ S5000x2.size a
  h_S5000x2 : 0 < S5000x2.numel
  dot_S2000x128_S128x64_S2000x64_1_0_0_1_n_n_wf : DotDims.WF S2000x128 S128x64 S2000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S2000x64_S64x64_S2000x64_1_0_0_1_n_n_wf : DotDims.WF S2000x64 S64x64 S2000x64 [1] [0] [0] [1] [] []
  gather_S100000x64_S500000x1_S500000x64_1_0_n_n_0_1_164_wf : GatherDims.WF S100000x64 S500000x1 S500000x64 [1] [0] [] [0] [] 1 ![1, 64]
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S500000x2.size a
  hwx2_2 : ∀ i : grid2.Coords, EltTy.bits .f32 = 32 ∨ (Rect.block (s := S500000x2) S5000x2.size (cc2_transform_2 i) (hinb2_2 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000 : Shape := ⟨1, ![1000000]⟩
abbrev S2x500000 : Shape := ⟨2, ![2, 500000]⟩
abbrev S128x64 : Shape := ⟨2, ![128, 64]⟩
abbrev S64x64 : Shape := ⟨2, ![64, 64]⟩
abbrev S2x128 : Shape := ⟨2, ![2, 128]⟩
abbrev S1x1000000 : Shape := ⟨2, ![1, 1000000]⟩
abbrev S100000x64 : Shape := ⟨2, ![100000, 64]⟩
abbrev S_ : Shape := ⟨0, ![]⟩
abbrev S1000000x1 : Shape := ⟨2, ![1000000, 1]⟩
abbrev S1000000x64 : Shape := ⟨2, ![1000000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S500000x128 : Shape := ⟨2, ![500000, 128]⟩
abbrev S128x2 : Shape := ⟨2, ![128, 2]⟩
abbrev S500000x2 : Shape := ⟨2, ![500000, 2]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000, .f32⟩
  | .hbm, ⟨3, _⟩ => ⟨S2x500000, .i32⟩
  | .hbm, ⟨4, _⟩ => ⟨S128x64, .f32⟩
  | .hbm, ⟨5, _⟩ => ⟨S64x64, .f32⟩
  | .hbm, ⟨6, _⟩ => ⟨S2x128, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S100000x64, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S1000000x1, .f32⟩
  | .hbm, ⟨22, _⟩ => ⟨S1000000x64, .f32⟩
  | .hbm, ⟨23, _⟩ => ⟨S1000000x64, .f32⟩
  | .hbm, ⟨24, _⟩ => ⟨S_, .f32⟩
  | .hbm, ⟨25, _⟩ => ⟨S100000x64, .f32⟩
  | .hbm, ⟨26, _⟩ => ⟨S1000000x1, .i32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .f32⟩
  | .hbm, ⟨41, _⟩ => ⟨S1000000x1, .f32⟩
  | .hbm, ⟨42, _⟩ => ⟨S1000000x64, .f32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S1x500000, .i32⟩
  | .hbm, ⟨49, _⟩ => ⟨S500000, .i32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x64, .f32⟩
  | .hbm, ⟨59, _⟩ => ⟨S1x500000, .i32⟩
  | .hbm, ⟨60, _⟩ => ⟨S500000, .i32⟩
  | .hbm, ⟨61, _⟩ => ⟨S_, .i32⟩
  | .hbm, ⟨62, _⟩ => ⟨S500000, .i32⟩
  | .hbm, ⟨63, _⟩ => ⟨S500000, .i1⟩
  | .hbm, ⟨64, _⟩ => ⟨S_, .i32⟩
  | .hbm, ⟨65, _⟩ => ⟨S500000, .i32⟩
  | .hbm, ⟨66, _⟩ => ⟨S500000, .i32⟩
  | .hbm, ⟨67, _⟩ => ⟨S500000, .i32⟩
  | .hbm, ⟨68, _⟩ => ⟨S500000x1, .i32⟩
  | .hbm, ⟨69, _⟩ => ⟨S500000x64, .f32⟩
  | .hbm, ⟨70, _⟩ => ⟨S500000x128, .f32⟩
  | .hbm, ⟨71, _⟩ => ⟨S128x2, .f32⟩
  | .hbm, ⟨72, _⟩ => ⟨S500000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x64_S500000x64_S500000x128_d1 : Shape.Concatenates [S500000x64, S500000x64] S500000x128 1
  transposes_S2x128_S128x2_1_0 : S2x128.Transposes [1, 0] S128x2
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  dot_S500000x128_S128x2_S500000x2_1_0_0_1_n_n_wf : DotDims.WF S500000x128 S128x2 S500000x2 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x128_S128x2_S500000x2_1_0_0_1_n_n : DotDims S500000x128 S128x2 S500000x2 where
  lhsContracting := [1]
  rhsContracting := [0]
  lhsNonContracting := [0]
  rhsNonContracting := [1]
  lhsBatch := []
  rhsBatch := []
  wf := dot_S500000x128_S128x2_S500000x2_1_0_0_1_n_n_wf

class Facts : Prop extends Facts₀ where

variable [Facts]
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.MatProduct.lean ====
/-
  The product of an `M × K` array by a `K × N` array of extended reals as ONE function of the two arrays,
  `mm l r (i, j) = ∑ k : Fin K, l (i, k) · r (k, j)`, and the two printed operations that compute it at the ideal values:

  * a `tpu.matmul` with the plain dimension numbers into the zero accumulator, of operands narrowed to bf16 first:
    narrowing is the identity on extended reals, and the accumulator contributes `0`;
  * the host's `dot_general` with the same dimension numbers.

  Both are the same finite sum, so no finiteness of the entries is used anywhere: the sum of products over `Fin K` is
  the same expression on both sides, term by term.

  `mm_block` reads a block of rows: if `x0` holds rows `b·tm … b·tm + tm - 1` of `A` and `x1` is all of `B`, the
  product `mm x0 x1` at `(p, q)` is the product `mm A B` at `(b·tm + p, q)` — a row of the product depends on that row
  of the left operand only.
-/
import proofs.«166312_j2190433321526_1_alg».proof.Proof.LibPlainDot
import Idealize.ShloMosaic.Lib.Pipeline.Value

noncomputable section

namespace Cert.MatProduct

open Idealize.ShloMosaic Idealize.ShloMosaic.ValueIdx

variable (M K N : Nat)

/-- The matrix product, index by index. -/
def mm (l : FVec Ideal ⟨2, ![M, K]⟩ .f32) (r : FVec Ideal ⟨2, ![K, N]⟩ .f32) : FVec Ideal ⟨2, ![M, N]⟩ .f32 :=
  fun i => ∑ k : Fin K, l (ix2 (i 0) k) * r (ix2 k (i 1))

/-- The kernel's product: both operands narrowed to bf16 (the identity at the ideal values), multiplied into zero. -/
theorem matmul_bf16_eq (l : FVec Ideal ⟨2, ![M, K]⟩ .f32) (r : FVec Ideal ⟨2, ![K, N]⟩ .f32)
    (hl : FTy.bf16.bits < FTy.f32.bits) (hr : FTy.bf16.bits < FTy.f32.bits) :
    matmul (DotDims.plain M K N) none (truncf .bf16 l hl) (truncf .bf16 r hr) (constant ⟨2, ![M, N]⟩ .f32 0x00000000#32)
      = mm M K N l r := by
  funext i
  rw [PlainDot.matmul_zero_apply]
  rfl

/-- The host's product. -/
theorem dotGeneral_eq (l : FVec Ideal ⟨2, ![M, K]⟩ .f32) (r : FVec Ideal ⟨2, ![K, N]⟩ .f32) :
    Host.dotGeneral (DotDims.plain M K N) none l r = mm M K N l r := by
  funext i
  simp only [Host.dotGeneral]
  rw [Ideal.dotGeneral_apply]
  exact PlainDot.sum_contr M K N l r i

/-- A block of `tm` rows of the product is the product of that block of rows of the left operand by the whole right
    operand. -/
theorem mm_block (tm : Nat) (A : FVec Ideal ⟨2, ![M, K]⟩ .f32) (B : FVec Ideal ⟨2, ![K, N]⟩ .f32)
    (x0 : FVec Ideal ⟨2, ![tm, K]⟩ .f32) (x1 : FVec Ideal ⟨2, ![K, N]⟩ .f32) (b : Nat)
    (h0 : ∀ (p : Fin tm) (k : Fin K) (hp : b * tm + p.val < M), x0 (ix2 p k) = A (ix2 ⟨b * tm + p.val, hp⟩ k))
    (h1 : x1 = B)
    (j : (⟨2, ![tm, N]⟩ : Shape).Idx) (i : (⟨2, ![M, N]⟩ : Shape).Idx)
    (hi0 : (i 0).val = b * tm + (j 0).val) (hi1 : (i 1).val = (j 1).val) :
    mm tm K N x0 x1 j = mm M K N A B i := by
  unfold mm
  refine Finset.sum_congr rfl fun k _ => ?_
  have hp : b * tm + (j 0).val < M := hi0 ▸ (i 0).isLt
  rw [h0 (j 0) k hp, h1]
  have e0 : (⟨b * tm + (j 0).val, hp⟩ : Fin M) = i 0 := Fin.ext hi0.symm
  have e1 : (j 1 : Fin N) = i 1 := Fin.ext hi1.symm
  rw [e0, e1]

end Cert.MatProduct

end
-- ==== Proof.Region0.lean ====
/-
  The first pallas_call, `h = x @ W1`: one hundred thousand rows by 128, times 128 by 64, in fifty grid points.
  Point `t` stages rows `2000·t … 2000·t + 1999` of the left operand and the whole right operand, multiplies them (both
  narrowed to bf16, which changes nothing at the ideal values) into a zero accumulator, and writes the 2000 × 64 result back
  as rows `2000·t …` of the output array. A row of a matrix product depends only on that row of the left operand, so
  what point `t` writes back IS block `t` of the whole product (`flushed_eq`); the fifty blocks tile the output's rows
  (`cover`); hence the output array ends at the product of the two operand arrays (`out_eq`), whatever the buffers held
  when the region was entered.
-/
import proofs.«166312_j2190433321526_1_alg».proof.Proof.Gen.KernelIdeal.Frame
import proofs.«166312_j2190433321526_1_alg».proof.Proof.MatProduct

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.MatProduct

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the product of its two loaded blocks. -/
theorem pay (x0 : Vec Ideal S2000x128 .f32) (x1 : Vec Ideal S128x64 .f32) : k0_pay1 x0 x1 = mm 2000 128 64 x0 x1 :=
  matmul_bf16_eq 2000 128 64 x0 x1 _ _

/-- The index maps over the grid: point `t` takes row block `t` of the left operand and of the result, and the whole right operand. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed_eq (c : Dev nD) (t : Fin cfg0.N) :
    (dat0 V c).flushed 2 t = ((cfg0.win 2).blk t).view.read (Elt Ideal) (mm 100000 128 64 (V c main_arg0) (V c main_arg4)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  rw [pay]
  obtain ⟨e00, e01, e10, e11, e20, e21⟩ := idx_facts t
  funext j
  show mm 2000 128 64 (iblk0 V c 0 t) (iblk0 V c 1 t) j
    = mm 100000 128 64 (V c main_arg0) (V c main_arg4) (((cfg0.win 2).blk t).view.emb j)
  refine mm_block 100000 128 64 2000 (V c main_arg0) (V c main_arg4) (iblk0 V c 0 t) (iblk0 V c 1 t) t.val ?_ ?_ j _ ?_ ?_
  · intro p k hp
    show V c main_arg0 (((cfg0.win 0).blk t).view.emb (ix2 p k)) = V c main_arg0 (ix2 ⟨t.val * 2000 + p.val, hp⟩ k)
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · funext y
    show V c main_arg4 (((cfg0.win 1).blk t).view.emb y) = V c main_arg4 y
    refine congrArg (V c main_arg4) (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega
  · show win0_2.index t (0 : Fin 2) * 2000 + 1 * (j 0).val = t.val * 2000 + (j 0).val; omega
  · show win0_2.index t (1 : Fin 2) * 64 + 1 * (j 1).val = (j 1).val; omega

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v4).slice (win0_2.rect t)).set ↔ _
  rw [View.set_slice_whole, Rect.mem_set_unit]
  exact Iff.rfl

/-- Every row block of the result is some point's. -/
theorem idx_onto : ∀ q : Fin 50, ∃ t : Fin cfg0.N, win0_2.index t = ![q.val, 0] :=
  (by decide +kernel : ∀ q : Fin 50, ∃ t : Fin grid0.N, win0_2.index t = ![q.val, 0])

/-- The fifty row blocks of two thousand rows tile the hundred thousand rows: row `r` is in block `r / 2000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- REGION 0's RESULT: whatever the buffers hold when the region is entered (`V`), its output array ends at the
    product of its two operand arrays as entered. -/
theorem out_eq (c : Dev nD) : (dat0 V c).arrAt 2 cfg0.N = mm 100000 128 64 (V c main_arg0) (V c main_arg4) :=
  (dat0 V c).arrAt_eq_of_cover 2 _ (fun t _ => flushed_eq V c t) cover

end Cert.KernelIdeal.Region0

end
-- ==== Proof.Region1.lean ====
/-
  The second pallas_call, `relu(h0) @ W2`: one hundred thousand rows by 64, times 64 by 64, in fifty grid points of 2000
  rows each. As for the first call: point `t` writes back block `t` of the whole product, a row of the product depending on
  that row of the left operand only, and the fifty row blocks tile the output. The body re-views its left block in the
  block's own shape before narrowing it, which reads every entry where it was.
-/
import proofs.«166312_j2190433321526_1_alg».proof.Proof.Gen.KernelIdeal.Frame
import proofs.«166312_j2190433321526_1_alg».proof.Proof.MatProduct

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.MatProduct

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the product of its two loaded blocks (the same-shape re-view of the left one is the
    identity). -/
theorem pay (x0 : Vec Ideal S2000x64 .f32) (x1 : Vec Ideal S64x64 .f32) : k1_pay1 x0 x1 = mm 2000 64 64 x0 x1 := by
  unfold k1_pay1
  simp only [shapeCast_self]
  exact matmul_bf16_eq 2000 64 64 x0 x1 _ _

/-- The index maps over the grid: point `t` takes row block `t` of the left operand and of the result, and the whole right operand. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the operand arrays as the region finds them. -/
theorem flushed_eq (c : Dev nD) (t : Fin cfg1.N) :
    (dat1 V c).flushed 2 t = ((cfg1.win 2).blk t).view.read (Elt Ideal) (mm 100000 64 64 (V c main_v18) (V c main_arg5)) := by
  show (cfg1.win 2).cut (grid1.coords t) ((dat1 V c).after 2 t) = _
  rw [after1_2]
  unfold out1_2
  rw [View.canon_unit_zero hz]
  simp only [View.ld_unit_zero (S := S2000x64) hz, View.ld_unit_zero (S := S64x64) hz]
  rw [pay]
  obtain ⟨e00, e01, e10, e11, e20, e21⟩ := idx_facts t
  funext j
  show mm 2000 64 64 (iblk1 V c 0 t) (iblk1 V c 1 t) j
    = mm 100000 64 64 (V c main_v18) (V c main_arg5) (((cfg1.win 2).blk t).view.emb j)
  refine mm_block 100000 64 64 2000 (V c main_v18) (V c main_arg5) (iblk1 V c 0 t) (iblk1 V c 1 t) t.val ?_ ?_ j _ ?_ ?_
  · intro p k hp
    show V c main_v18 (((cfg1.win 0).blk t).view.emb (ix2 p k)) = V c main_v18 (ix2 ⟨t.val * 2000 + p.val, hp⟩ k)
    refine congrArg (V c main_v18) (funext fun a => Fin.ext ?_)
    match a with
    | ⟨0, _⟩ => show win1_0.index t (0 : Fin 2) * 2000 + 1 * p.val = t.val * 2000 + p.val; omega
    | ⟨1, _⟩ => show win1_0.index t (1 : Fin 2) * 64 + 1 * k.val = k.val; omega
  · funext y
    show V c main_arg5 (((cfg1.win 1).blk t).view.emb y) = V c main_arg5 y
    refine congrArg (V c main_arg5) (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  · show win1_2.index t (0 : Fin 2) * 2000 + 1 * (j 0).val = t.val * 2000 + (j 0).val; omega
  · show win1_2.index t (1 : Fin 2) * 64 + 1 * (j 1).val = (j 1).val; omega

/-- An index of the result array is in point `t`'s block iff each coordinate is in the block's range on its axis. -/
theorem mem_blk (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v19).slice (win1_2.rect t)).set ↔ _
  rw [View.set_slice_whole, Rect.mem_set_unit]
  exact Iff.rfl

/-- Every row block of the result is some point's. -/
theorem idx_onto : ∀ q : Fin 50, ∃ t : Fin cfg1.N, win1_2.index t = ![q.val, 0] :=
  (by decide +kernel : ∀ q : Fin 50, ∃ t : Fin grid1.N, win1_2.index t = ![q.val, 0])

/-- The fifty row blocks of two thousand rows tile the hundred thousand rows: row `r` is in block `r / 2000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- REGION 1's RESULT: whatever the buffers hold when the region is entered (`V`), its output array ends at the
    product of its two operand arrays as entered. -/
theorem out_eq (c : Dev nD) : (dat1 V c).arrAt 2 cfg1.N = mm 100000 64 64 (V c main_v18) (V c main_arg5) :=
  (dat1 V c).arrAt_eq_of_cover 2 _ (fun t _ => flushed_eq V c t) cover

end Cert.KernelIdeal.Region1

end
-- ==== Proof.Region2.lean ====
/-
  The third pallas_call, the decode `pairs @ Wlin.T`: five hundred thousand rows by 128, times 128 by 2, in one hundred grid
  points of 5000 rows each. As for the other two calls: point `t` writes back block `t` of the whole product, and the
  hundred row blocks tile the output. The body re-views both blocks in their own shapes before narrowing them, which
  reads every entry where it was.
-/
import proofs.«166312_j2190433321526_1_alg».proof.Proof.Gen.KernelIdeal.Frame
import proofs.«166312_j2190433321526_1_alg».proof.Proof.MatProduct

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.MatProduct

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the product of its two loaded blocks (the same-shape re-views are the identity). -/
theorem pay (x0 : Vec Ideal S5000x128 .f32) (x1 : Vec Ideal S128x2 .f32) : k2_pay1 x0 x1 = mm 5000 128 2 x0 x1 := by
  unfold k2_pay1
  simp only [shapeCast_self]
  exact matmul_bf16_eq 5000 128 2 x0 x1 _ _

/-- The index maps over the grid: point `t` takes row block `t` of the left operand and of the result, and the whole right operand. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the operand arrays as the region finds them. -/
theorem flushed_eq (c : Dev nD) (t : Fin cfg2.N) :
    (dat2 V c).flushed 2 t = ((cfg2.win 2).blk t).view.read (Elt Ideal) (mm 500000 128 2 (V c main_v51) (V c main_v52)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x2) hz]
  rw [pay]
  obtain ⟨e00, e01, e10, e11, e20, e21⟩ := idx_facts t
  funext j
  show mm 5000 128 2 (iblk2 V c 0 t) (iblk2 V c 1 t) j
    = mm 500000 128 2 (V c main_v51) (V c main_v52) (((cfg2.win 2).blk t).view.emb j)
  refine mm_block 500000 128 2 5000 (V c main_v51) (V c main_v52) (iblk2 V c 0 t) (iblk2 V c 1 t) t.val ?_ ?_ j _ ?_ ?_
  · intro p k hp
    show V c main_v51 (((cfg2.win 0).blk t).view.emb (ix2 p k)) = V c main_v51 (ix2 ⟨t.val * 5000 + p.val, hp⟩ k)
    refine congrArg (V c main_v51) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · funext y
    show V c main_v52 (((cfg2.win 1).blk t).view.emb y) = V c main_v52 y
    refine congrArg (V c main_v52) (funext fun a => Fin.ext ?_)
    match a with
    | ⟨0, _⟩ => show win2_1.index t (0 : Fin 2) * 128 + 1 * (y 0).val = (y 0).val; omega
    | ⟨1, _⟩ => show win2_1.index t (1 : Fin 2) * 2 + 1 * (y 1).val = (y 1).val; omega
  · show win2_2.index t (0 : Fin 2) * 5000 + 1 * (j 0).val = t.val * 5000 + (j 0).val; omega
  · show win2_2.index t (1 : Fin 2) * 2 + 1 * (j 1).val = (j 1).val; omega

/-- An index of the result array is in point `t`'s block iff each coordinate is in the block's range on its axis. -/
theorem mem_blk (t : Fin cfg2.N) (i : S500000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v53).slice (win2_2.rect t)).set ↔ _
  rw [View.set_slice_whole, Rect.mem_set_unit]
  exact Iff.rfl

/-- Every row block of the result is some point's. -/
theorem idx_onto : ∀ q : Fin 100, ∃ t : Fin cfg2.N, win2_2.index t = ![q.val, 0] :=
  (by decide +kernel : ∀ q : Fin 100, ∃ t : Fin grid2.N, win2_2.index t = ![q.val, 0])

/-- The hundred row blocks of five thousand rows tile the five hundred thousand rows: row `r` is in block `r / 5000`. -/
theorem cover (i : S500000x2.Idx) : ∃ t : Fin cfg2.N, (cfg2.win 2).flush t = true ∧ i ∈ ((cfg2.win 2).blk t).view.set := by
  have hi0 : (i 0).val < 500000 := (i 0).isLt
  have hi1 : (i 1).val < 2 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 2 ≤ (i 1).val ∧ (i 1).val < win2_2.index t (1 : Fin 2) * 2 + 2; omega

/-- REGION 2's RESULT: whatever the buffers hold when the region is entered (`V`), its output array ends at the
    product of its two operand arrays as entered. -/
theorem out_eq (c : Dev nD) : (dat2 V c).arrAt 2 cfg2.N = mm 500000 128 2 (V c main_v51) (V c main_v52) :=
  (dat2 V c).arrAt_eq_of_cover 2 _ (fun t _ => flushed_eq V c t) cover

end Cert.KernelIdeal.Region2

end
-- ==== Proof.Boundaries.lean ====
/-
  The kernel's @main between its three products, and the value its result array ends at.

  @main is: the two rows of the edge list (`src`, `dst`); the first product; one message-passing layer (`layer`: gather
  the source rows, scale each by its edge weight, scatter-add into the destination rows) and the relu; the second product;
  a second layer; the decode's endpoint rows side by side (`pairs`) and the transposed last weight (`wlinT`); the third
  product. Each stretch of host operations is read ONCE, for an arbitrary valuation of the buffers at its entry, as one
  named function of the buffers it reads; the operations inside (a gather, a scatter-add, the index wrap-around) are
  never opened. At the concrete boundaries of the run the buffers are then followed from the launch memory: a host
  stretch applies its function, a region's output array ends at the product of its operand arrays (the three region
  modules), and a buffer that neither writes keeps its contents. The result array ends at `value` of the seven argument
  arrays: the three products composed with the glue between them.
-/
import proofs.«166312_j2190433321526_1_alg».proof.Proof.Region0
import proofs.«166312_j2190433321526_1_alg».proof.Proof.Region1
import proofs.«166312_j2190433321526_1_alg».proof.Proof.Region2
import Idealize.ShloMosaic.Lib.StableHlo.Run

set_option maxRecDepth 16384

noncomputable section

namespace Cert.KernelIdeal.Boundaries

open Idealize.ShloMosaic Idealize.ShloMosaic.TcCoe Idealize.ShloMosaic.StableHlo Idealize.SL.Sem
open Cert.KernelIdeal Cert.KernelIdeal.Gen Cert.MatProduct

/-! ## The glue between the products, as functions of what it reads -/

/-- Row 0 of the edge list: each edge's source node. -/
def src (e : IVec S2x1000000 32) : IVec S1000000 32 :=
  shapeCast S1000000 (extractStridedSlice S1x1000000 ![0, 0] e slices_S2x1000000_S1x1000000_0_0) shapeCasts_S1x1000000_S1000000

/-- Row 1 of the edge list: each edge's destination node. -/
def dst (e : IVec S2x1000000 32) : IVec S1000000 32 :=
  shapeCast S1000000 (extractStridedSlice S1x1000000 ![1, 0] e slices_S2x1000000_S1x1000000_1_0) shapeCasts_S1x1000000_S1000000

/-- One message-passing layer without self-loops, normalisation or bias: row `i` of the result is the sum over the
    edges `e` with destination `i` of `w e` times row `s e` of `h` (a negative node index counted from the end). -/
def layer (h : FVec Ideal S100000x64 .f32) (s d : IVec S1000000 32) (w : FVec Ideal S1000000 .f32) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 d)
    (mulf (F := Ideal)
      (Host.gather gather_S100000x64_S1000000x1_S1000000x64_1_0_n_n_0_1_164 h
        (broadcastInDim S1000000x1 ![0] bcast_S1000000_S1000000x1_0
          (select (cmpi .slt s (broadcastInDim S1000000 ![] bcast_S_S1000000 (constantI S_ 32 0#32)))
            (addi s (broadcastInDim S1000000 ![] bcast_S_S1000000 (constantI S_ 32 100000#32))) s)))
      (broadcastInDim S1000000x64 ![0, 1] bcast_S1000000x1_S1000000x64_0_1
        (broadcastInDim S1000000x1 ![0] bcast_S1000000_S1000000x1_0 w)))

/-- The entrywise maximum with zero. -/
def relu (h : FVec Ideal S100000x64 .f32) : FVec Ideal S100000x64 .f32 :=
  maximumf (F := Ideal) h (broadcastInDim S100000x64 ![] bcast_S_S100000x64 (constant (F := Ideal) S_ .f32 0x00000000#32))

/-- Row 0 of the pair list: each pair's first endpoint. -/
def endA (p : IVec S2x500000 32) : IVec S500000 32 :=
  shapeCast S500000 (extractStridedSlice S1x500000 ![0, 0] p slices_S2x500000_S1x500000_0_0) shapeCasts_S1x500000_S500000

/-- Row 1 of the pair list: each pair's second endpoint. -/
def endB (p : IVec S2x500000 32) : IVec S500000 32 :=
  shapeCast S500000 (extractStridedSlice S1x500000 ![1, 0] p slices_S2x500000_S1x500000_1_0) shapeCasts_S1x500000_S500000

/-- The rows of `z` at the nodes `q` (a negative node index counted from the end). -/
def rowsAt (z : FVec Ideal S100000x64 .f32) (q : IVec S500000 32) : FVec Ideal S500000x64 .f32 :=
  Host.gather gather_S100000x64_S500000x1_S500000x64_1_0_n_n_0_1_164 z
    (broadcastInDim S500000x1 ![0] bcast_S500000_S500000x1_0
      (select (cmpi .slt q (broadcastInDim S500000 ![] bcast_S_S500000 (constantI S_ 32 0#32)))
        (addi q (broadcastInDim S500000 ![] bcast_S_S500000 (constantI S_ 32 100000#32))) q))

/-- Two arrays of 64 columns side by side. -/
def join (u v : FVec Ideal S500000x64 .f32) : FVec Ideal S500000x128 .f32 :=
  concatenate S500000x128 1 [⟨S500000x64, u⟩, ⟨S500000x64, v⟩] concatenates_S500000x64_S500000x64_S500000x128_d1

/-- Each pair's two endpoint rows of `z`, side by side. -/
def pairs (z : FVec Ideal S100000x64 .f32) (p : IVec S2x500000 32) : FVec Ideal S500000x128 .f32 :=
  join (rowsAt z (endA p)) (rowsAt z (endB p))

/-- The last weight, transposed. -/
def wlinT (w : FVec Ideal S2x128 .f32) : FVec Ideal S128x2 .f32 :=
  transpose S128x2 [1, 0] w transposes_S2x128_S128x2_1_0

/-- The first layer's output, after the relu. -/
def hidden (x : FVec Ideal S100000x128 .f32) (e : IVec S2x1000000 32) (w : FVec Ideal S1000000 .f32) (W1 : FVec Ideal S128x64 .f32) : FVec Ideal S100000x64 .f32 :=
  relu (layer (mm 100000 128 64 x W1) (src e) (dst e) w)

/-- The second layer's output: the node embeddings. -/
def embed (x : FVec Ideal S100000x128 .f32) (e : IVec S2x1000000 32) (w : FVec Ideal S1000000 .f32) (W1 : FVec Ideal S128x64 .f32) (W2 : FVec Ideal S64x64 .f32) :
    FVec Ideal S100000x64 .f32 :=
  layer (mm 100000 64 64 (hidden x e w W1) W2) (src e) (dst e) w

/-- THE KERNEL'S VALUE: the three products composed with the glue between them. -/
def value (x : FVec Ideal S100000x128 .f32) (e : IVec S2x1000000 32) (w : FVec Ideal S1000000 .f32) (p : IVec S2x500000 32)
    (W1 : FVec Ideal S128x64 .f32) (W2 : FVec Ideal S64x64 .f32) (Wl : FVec Ideal S2x128 .f32) : FVec Ideal S500000x2 .f32 :=
  mm 500000 128 2 (pairs (embed x e w W1 W2) p) (wlinT Wl)

/-- Joining is a function of the two arrays joined. -/
theorem join_congr {u u' v v' : FVec Ideal S500000x64 .f32} (hu : u = u') (hv : v = v') :
    concatenate S500000x128 1 [⟨S500000x64, u⟩, ⟨S500000x64, v⟩] concatenates_S500000x64_S500000x64_S500000x128_d1
      = join u' v' := by
  rw [hu, hv]; rfl

/-! ## Each stretch of host operations, from any buffer contents `X` at its entry -/

section Stretches

variable (X : Valuation τ sig (Elt Ideal))

/-! ### The two rows of the edge list -/

theorem slices_v1 : after hostOps0 X (Proc.devRef .tc main_v1) = src (X (Proc.devRef .tc main_arg1)) := by
  after_results_simp; rfl
theorem slices_v3 : after hostOps0 X (Proc.devRef .tc main_v3) = dst (X (Proc.devRef .tc main_arg1)) := by
  after_results_simp; rfl
theorem slices_arg0 : after hostOps0 X (Proc.devRef .tc main_arg0) = X (Proc.devRef .tc main_arg0) := by after_results
theorem slices_arg2 : after hostOps0 X (Proc.devRef .tc main_arg2) = X (Proc.devRef .tc main_arg2) := by after_results
theorem slices_arg3 : after hostOps0 X (Proc.devRef .tc main_arg3) = X (Proc.devRef .tc main_arg3) := by after_results
theorem slices_arg4 : after hostOps0 X (Proc.devRef .tc main_arg4) = X (Proc.devRef .tc main_arg4) := by after_results
theorem slices_arg5 : after hostOps0 X (Proc.devRef .tc main_arg5) = X (Proc.devRef .tc main_arg5) := by after_results
theorem slices_arg6 : after hostOps0 X (Proc.devRef .tc main_arg6) = X (Proc.devRef .tc main_arg6) := by after_results

/-! ### The first layer and the relu -/

set_option maxHeartbeats 4000000 in
/-- The first layer, of the first product `main_v4`. -/
theorem layer1_v17 : after hostOps1 X (Proc.devRef .tc main_v17)
    = layer (X (Proc.devRef .tc main_v4)) (X (Proc.devRef .tc main_v1)) (X (Proc.devRef .tc main_v3)) (X (Proc.devRef .tc main_arg2)) := by
  after_results_simp; rfl

/-- The relu, of the first layer's output `main_v17`. -/
theorem relu_v18 : after hostOps1_1 X (Proc.devRef .tc main_v18) = relu (X (Proc.devRef .tc main_v17)) := by
  after_results_simp; rfl

/-- The first layer and the relu, of the first product `main_v4`. -/
theorem layer1_v18 : after hostOps1_1 (after hostOps1 X) (Proc.devRef .tc main_v18)
    = relu (layer (X (Proc.devRef .tc main_v4)) (X (Proc.devRef .tc main_v1)) (X (Proc.devRef .tc main_v3)) (X (Proc.devRef .tc main_arg2))) :=
  (relu_v18 (after hostOps1 X)).trans (congrArg relu (layer1_v17 X))

set_option maxHeartbeats 4000000 in
theorem layer1_v1 : after hostOps1_1 (after hostOps1 X) (Proc.devRef .tc main_v1) = X (Proc.devRef .tc main_v1) := by after_results
set_option maxHeartbeats 4000000 in
theorem layer1_v3 : after hostOps1_1 (after hostOps1 X) (Proc.devRef .tc main_v3) = X (Proc.devRef .tc main_v3) := by after_results
set_option maxHeartbeats 4000000 in
theorem layer1_arg2 : after hostOps1_1 (after hostOps1 X) (Proc.devRef .tc main_arg2) = X (Proc.devRef .tc main_arg2) := by after_results
set_option maxHeartbeats 4000000 in
theorem layer1_arg3 : after hostOps1_1 (after hostOps1 X) (Proc.devRef .tc main_arg3) = X (Proc.devRef .tc main_arg3) := by after_results
set_option maxHeartbeats 4000000 in
theorem layer1_arg5 : after hostOps1_1 (after hostOps1 X) (Proc.devRef .tc main_arg5) = X (Proc.devRef .tc main_arg5) := by after_results
set_option maxHeartbeats 4000000 in
theorem layer1_arg6 : after hostOps1_1 (after hostOps1 X) (Proc.devRef .tc main_arg6) = X (Proc.devRef .tc main_arg6) := by after_results

/-! ### The second layer, the decode's endpoint rows and the transposed weight -/

set_option maxHeartbeats 8000000 in
/-- The second layer and the decode's endpoint rows, of the second product `main_v19`. -/
theorem layer2_v51 : after hostOps2 X (Proc.devRef .tc main_v51)
    = pairs (layer (X (Proc.devRef .tc main_v19)) (X (Proc.devRef .tc main_v1)) (X (Proc.devRef .tc main_v3)) (X (Proc.devRef .tc main_arg2)))
        (X (Proc.devRef .tc main_arg3)) := by
  after_results_simp
  refine join_congr ?_ ?_
  · after_results_simp; rfl
  · after_results_simp; rfl
set_option maxHeartbeats 4000000 in
theorem layer2_v52 : after hostOps2 X (Proc.devRef .tc main_v52) = wlinT (X (Proc.devRef .tc main_arg6)) := by
  after_results_simp; rfl

end Stretches

/-! ## The run's boundaries, followed from the launch memory -/

section Run

variable (m : (ℓ : Loc nD τ sig) → Buf (Elt Ideal) ℓ) (ρ : Dev nD → PrngReg) (c : Dev nD)

/-! ### At the first product's entry -/

theorem W1_v1 : W1 m ρ c (Proc.devRef .tc main_v1) = src (m ((c : Thread nD τ).loc main_arg1)) := slices_v1 (W0 m ρ c)
theorem W1_v3 : W1 m ρ c (Proc.devRef .tc main_v3) = dst (m ((c : Thread nD τ).loc main_arg1)) := slices_v3 (W0 m ρ c)
theorem W1_arg0 : W1 m ρ c (Proc.devRef .tc main_arg0) = (m ((c : Thread nD τ).loc main_arg0)) := slices_arg0 (W0 m ρ c)
theorem W1_arg2 : W1 m ρ c (Proc.devRef .tc main_arg2) = (m ((c : Thread nD τ).loc main_arg2)) := slices_arg2 (W0 m ρ c)
theorem W1_arg3 : W1 m ρ c (Proc.devRef .tc main_arg3) = (m ((c : Thread nD τ).loc main_arg3)) := slices_arg3 (W0 m ρ c)
theorem W1_arg4 : W1 m ρ c (Proc.devRef .tc main_arg4) = (m ((c : Thread nD τ).loc main_arg4)) := slices_arg4 (W0 m ρ c)
theorem W1_arg5 : W1 m ρ c (Proc.devRef .tc main_arg5) = (m ((c : Thread nD τ).loc main_arg5)) := slices_arg5 (W0 m ρ c)
theorem W1_arg6 : W1 m ρ c (Proc.devRef .tc main_arg6) = (m ((c : Thread nD τ).loc main_arg6)) := slices_arg6 (W0 m ρ c)

/-! ### At the first product's exit: its output is the product, everything else is as entered -/

theorem W2_v4 : W2 m ρ c (Proc.devRef .tc main_v4) = mm 100000 128 64 (m ((c : Thread nD τ).loc main_arg0)) (m ((c : Thread nD τ).loc main_arg4)) := by
  refine (W2_arr m ρ c 2).trans ?_
  rw [Region0.out_eq]
  show mm 100000 128 64 (W1 m ρ c (Proc.devRef .tc main_arg0)) (W1 m ρ c (Proc.devRef .tc main_arg4)) = _
  rw [W1_arg0 m ρ c, W1_arg4 m ρ c]
theorem W2_v1 : W2 m ρ c (Proc.devRef .tc main_v1) = src (m ((c : Thread nD τ).loc main_arg1)) :=
  (W2_of_ne m ρ c main_v1 (by decide)).trans (W1_v1 m ρ c)
theorem W2_v3 : W2 m ρ c (Proc.devRef .tc main_v3) = dst (m ((c : Thread nD τ).loc main_arg1)) :=
  (W2_of_ne m ρ c main_v3 (by decide)).trans (W1_v3 m ρ c)
theorem W2_arg2 : W2 m ρ c (Proc.devRef .tc main_arg2) = (m ((c : Thread nD τ).loc main_arg2)) :=
  (W2_of_ne m ρ c main_arg2 (by decide)).trans (W1_arg2 m ρ c)
theorem W2_arg3 : W2 m ρ c (Proc.devRef .tc main_arg3) = (m ((c : Thread nD τ).loc main_arg3)) :=
  (W2_of_ne m ρ c main_arg3 (by decide)).trans (W1_arg3 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)

/-! ### At the second product's entry: the first layer and the relu have run -/

theorem W4_v18 : W4 m ρ c (Proc.devRef .tc main_v18) = hidden (m ((c : Thread nD τ).loc main_arg0)) (m ((c : Thread nD τ).loc main_arg1)) (m ((c : Thread nD τ).loc main_arg2)) (m ((c : Thread nD τ).loc main_arg4)) := by
  refine (layer1_v18 (W2 m ρ c)).trans ?_
  rw [W2_v4 m ρ c, W2_v1 m ρ c, W2_v3 m ρ c, W2_arg2 m ρ c]
  rfl
theorem W4_v1 : W4 m ρ c (Proc.devRef .tc main_v1) = src (m ((c : Thread nD τ).loc main_arg1)) := (layer1_v1 (W2 m ρ c)).trans (W2_v1 m ρ c)
theorem W4_v3 : W4 m ρ c (Proc.devRef .tc main_v3) = dst (m ((c : Thread nD τ).loc main_arg1)) := (layer1_v3 (W2 m ρ c)).trans (W2_v3 m ρ c)
theorem W4_arg2 : W4 m ρ c (Proc.devRef .tc main_arg2) = (m ((c : Thread nD τ).loc main_arg2)) := (layer1_arg2 (W2 m ρ c)).trans (W2_arg2 m ρ c)
theorem W4_arg3 : W4 m ρ c (Proc.devRef .tc main_arg3) = (m ((c : Thread nD τ).loc main_arg3)) := (layer1_arg3 (W2 m ρ c)).trans (W2_arg3 m ρ c)
theorem W4_arg5 : W4 m ρ c (Proc.devRef .tc main_arg5) = (m ((c : Thread nD τ).loc main_arg5)) := (layer1_arg5 (W2 m ρ c)).trans (W2_arg5 m ρ c)
theorem W4_arg6 : W4 m ρ c (Proc.devRef .tc main_arg6) = (m ((c : Thread nD τ).loc main_arg6)) := (layer1_arg6 (W2 m ρ c)).trans (W2_arg6 m ρ c)

/-! ### At the second product's exit -/

theorem W5_v19 : W5 m ρ c (Proc.devRef .tc main_v19)
    = mm 100000 64 64 (hidden (m ((c : Thread nD τ).loc main_arg0)) (m ((c : Thread nD τ).loc main_arg1)) (m ((c : Thread nD τ).loc main_arg2)) (m ((c : Thread nD τ).loc main_arg4))) (m ((c : Thread nD τ).loc main_arg5)) := by
  refine (W5_arr m ρ c 2).trans ?_
  rw [Region1.out_eq]
  show mm 100000 64 64 (W4 m ρ c (Proc.devRef .tc main_v18)) (W4 m ρ c (Proc.devRef .tc main_arg5)) = _
  rw [W4_v18 m ρ c, W4_arg5 m ρ c]
theorem W5_v1 : W5 m ρ c (Proc.devRef .tc main_v1) = src (m ((c : Thread nD τ).loc main_arg1)) :=
  (W5_of_ne m ρ c main_v1 (by decide)).trans (W4_v1 m ρ c)
theorem W5_v3 : W5 m ρ c (Proc.devRef .tc main_v3) = dst (m ((c : Thread nD τ).loc main_arg1)) :=
  (W5_of_ne m ρ c main_v3 (by decide)).trans (W4_v3 m ρ c)
theorem W5_arg2 : W5 m ρ c (Proc.devRef .tc main_arg2) = (m ((c : Thread nD τ).loc main_arg2)) :=
  (W5_of_ne m ρ c main_arg2 (by decide)).trans (W4_arg2 m ρ c)
theorem W5_arg3 : W5 m ρ c (Proc.devRef .tc main_arg3) = (m ((c : Thread nD τ).loc main_arg3)) :=
  (W5_of_ne m ρ c main_arg3 (by decide)).trans (W4_arg3 m ρ c)
theorem W5_arg6 : W5 m ρ c (Proc.devRef .tc main_arg6) = (m ((c : Thread nD τ).loc main_arg6)) :=
  (W5_of_ne m ρ c main_arg6 (by decide)).trans (W4_arg6 m ρ c)

/-! ### At the third product's entry: the second layer and the decode's operands are there -/

theorem W6_v51 : W6 m ρ c (Proc.devRef .tc main_v51)
    = pairs (embed (m ((c : Thread nD τ).loc main_arg0)) (m ((c : Thread nD τ).loc main_arg1)) (m ((c : Thread nD τ).loc main_arg2)) (m ((c : Thread nD τ).loc main_arg4)) (m ((c : Thread nD τ).loc main_arg5))) (m ((c : Thread nD τ).loc main_arg3)) := by
  refine (layer2_v51 (W5 m ρ c)).trans ?_
  rw [W5_v19 m ρ c, W5_v1 m ρ c, W5_v3 m ρ c, W5_arg2 m ρ c, W5_arg3 m ρ c]
  rfl
theorem W6_v52 : W6 m ρ c (Proc.devRef .tc main_v52) = wlinT (m ((c : Thread nD τ).loc main_arg6)) := by
  refine (layer2_v52 (W5 m ρ c)).trans ?_
  rw [W5_arg6 m ρ c]

/-! ### At the return -/

/-- THE RESULT ARRAY after the run is `value` of the seven argument arrays as launched. -/
theorem result_eq : W7 m ρ c (Proc.devRef .tc main_v53)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W7_arr m ρ c 2).trans ?_
  rw [Region2.out_eq]
  show mm 500000 128 2 (W6 m ρ c (Proc.devRef .tc main_v51)) (W6 m ρ c (Proc.devRef .tc main_v52)) = _
  rw [W6_v51 m ρ c, W6_v52 m ρ c]
  rfl

end Run

end Cert.KernelIdeal.Boundaries

end
-- ==== Proof.RefValue.lean ====
/-
  The reference computes the kernel's value.

  The reference's @main is the kernel's with a host `dot_general` in place of each pallas_call: the same two rows of
  the edge list, the same message-passing layer twice (with the relu between), the same endpoint rows side by side and
  the same transposed weight. Its generated stages, unfolded one at a time, are therefore the kernel's glue functions of
  the stages before them, and each `dot_general` is the matrix product `mm` of its operands. Everything is stated for
  VARIABLE argument arrays, so each comparison is between two short terms over the same variables.
-/
import proofs.«166312_j2190433321526_1_alg».proof.Proof.Boundaries
import proofs.«166312_j2190433321526_1_alg».proof.Proof.Gen.ReferenceIdeal.Read

set_option maxRecDepth 16384

noncomputable section

namespace Cert.ReferenceIdeal.RefValue

open Idealize.ShloMosaic Idealize.ShloMosaic.TcCoe
open Cert.KernelIdeal.Boundaries Cert.MatProduct

variable (x0 : FVec Ideal Cert.KernelIdeal.S100000x128 .f32) (x1 : IVec Cert.KernelIdeal.S2x1000000 32) (x2 : FVec Ideal Cert.KernelIdeal.S1000000 .f32)
  (x3 : IVec Cert.KernelIdeal.S2x500000 32) (x4 : FVec Ideal Cert.KernelIdeal.S128x64 .f32) (x5 : FVec Ideal Cert.KernelIdeal.S64x64 .f32)
  (x6 : FVec Ideal Cert.KernelIdeal.S2x128 .f32)

theorem v1_eq : Cert.ReferenceIdeal.Read.val_main_v1 (F := Ideal) x1 = src x1 := rfl
theorem v3_eq : Cert.ReferenceIdeal.Read.val_main_v3 (F := Ideal) x1 = dst x1 := rfl

/-- The first product. -/
theorem v4_eq : Cert.ReferenceIdeal.Read.val_main_v4 (F := Ideal) x0 x4 = mm 100000 128 64 x0 x4 :=
  dotGeneral_eq 100000 128 64 x0 x4

/-- The first layer, of the first product. -/
theorem v17_eq : Cert.ReferenceIdeal.Read.val_main_v17 (F := Ideal) x0 x1 x2 x4
    = layer (Cert.ReferenceIdeal.Read.val_main_v4 (F := Ideal) x0 x4) (Cert.ReferenceIdeal.Read.val_main_v1 (F := Ideal) x1) (Cert.ReferenceIdeal.Read.val_main_v3 (F := Ideal) x1) x2 := rfl

theorem v18_eq : Cert.ReferenceIdeal.Read.val_main_v18 (F := Ideal) x0 x1 x2 x4 = relu (Cert.ReferenceIdeal.Read.val_main_v17 (F := Ideal) x0 x1 x2 x4) := rfl

/-- The second product. -/
theorem v19_eq : Cert.ReferenceIdeal.Read.val_main_v19 (F := Ideal) x0 x1 x2 x4 x5
    = mm 100000 64 64 (Cert.ReferenceIdeal.Read.val_main_v18 (F := Ideal) x0 x1 x2 x4) x5 :=
  dotGeneral_eq 100000 64 64 _ x5

/-- The second layer, of the second product. -/
theorem v32_eq : Cert.ReferenceIdeal.Read.val_main_v32 (F := Ideal) x0 x1 x2 x4 x5
    = layer (Cert.ReferenceIdeal.Read.val_main_v19 (F := Ideal) x0 x1 x2 x4 x5) (Cert.ReferenceIdeal.Read.val_main_v1 (F := Ideal) x1) (Cert.ReferenceIdeal.Read.val_main_v3 (F := Ideal) x1) x2 := rfl

/-- The decode's endpoint rows, of the node embeddings. -/
theorem v51_eq : Cert.ReferenceIdeal.Read.val_main_v51 (F := Ideal) x0 x1 x2 x3 x4 x5
    = pairs (Cert.ReferenceIdeal.Read.val_main_v32 (F := Ideal) x0 x1 x2 x4 x5) x3 := rfl

theorem v52_eq : Cert.ReferenceIdeal.Read.val_main_v52 (F := Ideal) x6 = wlinT x6 := rfl

/-- The third product. -/
theorem v53_eq : Cert.ReferenceIdeal.Read.val_main_v53 (F := Ideal) x0 x1 x2 x3 x4 x5 x6
    = mm 500000 128 2 (Cert.ReferenceIdeal.Read.val_main_v51 (F := Ideal) x0 x1 x2 x3 x4 x5) (Cert.ReferenceIdeal.Read.val_main_v52 (F := Ideal) x6) :=
  dotGeneral_eq 500000 128 2 _ _

/-- THE REFERENCE'S RESULT is the kernel's value of the same seven arrays. -/
theorem result_eq : Cert.ReferenceIdeal.Read.val_main_v53 (F := Ideal) x0 x1 x2 x3 x4 x5 x6 = value x0 x1 x2 x3 x4 x5 x6 := by
  rw [v53_eq, v51_eq, v52_eq, v32_eq, v19_eq, v18_eq, v17_eq, v4_eq, v1_eq, v3_eq]
  rfl

end Cert.ReferenceIdeal.RefValue

end
-- ==== Proof.lean ====
/-
  The certificate of a two-layer graph convolution with a link-prediction decode whose three dense products are
  pallas_calls, against the same pipeline with the products on the host.

  Both programs compute, from node features `x`, an edge list with weights, a list of node pairs and three weights,
  `pairs(z) · Wlinᵀ` with `z = layer(relu(layer(x · W1)) · W2)`, where `layer h` sums into each destination row the weighted
  source rows of `h` and `pairs z` puts each pair's two endpoint rows side by side. The host operations around the products
  are the same in both programs; what differs is the product: the kernel computes it in row blocks (2000 rows, 2000 rows and
  5000 rows at a time), narrowing both operands to bf16 first, the reference in one `dot_general`. On the extended reals
  narrowing is the identity and both are the sum over the contracted index of the products of the entries, the same sum
  term by term; the row blocks tile the rows exactly. So the two results are equal for ALL inputs: the precondition
  (every float input finite) is not used by the value claim.

  * `Proof/MatProduct.lean`: the product as one function, the two operations that compute it, a block of its rows.
  * `Proof/Region0.lean`, `Region1.lean`, `Region2.lean`: each pallas_call's output array ends at the product of its operand arrays.
  * `Proof/KernelRun.lean`: the kernel's run with its result array named.
  * `Proof/Boundaries.lean`: the glue as named functions, and the result array as `value` of the arguments.
  * `Proof/RefValue.lean`: the reference's result is `value` of the same arguments.
  The three frames are the generated ones (the reference's is its generated run with the result dropped); the idealization
  rewrote nothing, so `preserves` is trivial.
-/
import proofs.«166312_j2190433321526_1_alg».proof.Defs
import proofs.«166312_j2190433321526_1_alg».proof.Proof.Gen.Kernel
import proofs.«166312_j2190433321526_1_alg».proof.Proof.Gen.Kernel.Skeleton
import proofs.«166312_j2190433321526_1_alg».proof.Proof.Gen.Kernel.Launch
import proofs.«166312_j2190433321526_1_alg».proof.Proof.Gen.Kernel.Points
import proofs.«166312_j2190433321526_1_alg».proof.Proof.Gen.Kernel.Frame
import proofs.«166312_j2190433321526_1_alg».proof.Proof.Gen.KernelIdeal
import proofs.«166312_j2190433321526_1_alg».proof.Proof.Gen.KernelIdeal.Skeleton
import proofs.«166312_j2190433321526_1_alg».proof.Proof.Gen.KernelIdeal.Launch
import proofs.«166312_j2190433321526_1_alg».proof.Proof.Gen.KernelIdeal.Points
import proofs.«166312_j2190433321526_1_alg».proof.Proof.Gen.KernelIdeal.Frame
import proofs.«166312_j2190433321526_1_alg».proof.Proof.Gen.ReferenceIdeal
import proofs.«166312_j2190433321526_1_alg».proof.Proof.Gen.ReferenceIdeal.Run
import proofs.«166312_j2190433321526_1_alg».proof.Proof.Gen.ReferenceIdeal.Read
import proofs.«166312_j2190433321526_1_alg».proof.Proof.Gen.Pre_finite_inputs
import proofs.«166312_j2190433321526_1_alg».proof.Proof.KernelRun
import proofs.«166312_j2190433321526_1_alg».proof.Proof.Boundaries
import proofs.«166312_j2190433321526_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `value` of the seven argument arrays: the kernel by following its
    buffers through the three products and the glue between them, the reference by unfolding its stages; the two
    memories agree on the arguments. -/
theorem algebraic : Cert.algebraic_KernelIdeal_ReferenceIdeal := by
  intro m ρ m' ρ' _ hagree
  refine ⟨fun c => Cert.KernelIdeal.Boundaries.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Boundaries.result_eq m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v53_eq, h0, h1, h2, h3, h4, h5, h6]
    exact Cert.ReferenceIdeal.RefValue.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
